-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S128x256 : Shape := ⟨2, ![128, 256]⟩
abbrev S256x128 : Shape := ⟨2, ![256, 128]⟩
abbrev S256x1 : Shape := ⟨2, ![256, 1]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S64x256x32x32 .f32) (main_arg1 : FVec F S128x256 .f32) (main_arg2 : FVec F S256x128 .f32) (main_arg3 : FVec F S256x1 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S64x256x32x32 : Shape := ⟨4, ![64, 256, 32, 32]⟩
abbrev S128x256 : Shape := ⟨2, ![128, 256]⟩
abbrev S256x128 : Shape := ⟨2, ![256, 128]⟩
abbrev S256x1 : Shape := ⟨2, ![256, 1]⟩
abbrev S64x256x8x128 : Shape := ⟨4, ![64, 256, 8, 128]⟩
abbrev S1x256 : Shape := ⟨2, ![1, 256]⟩
abbrev S8x256x8x128 : Shape := ⟨4, ![8, 256, 8, 128]⟩
abbrev S8x256 : Shape := ⟨2, ![8, 256]⟩
abbrev S8x128 : Shape := ⟨2, ![8, 128]⟩
abbrev S1x256x1x1 : Shape := ⟨4, ![1, 256, 1, 1]⟩
abbrev S8x8x128 : Shape := ⟨3, ![8, 8, 128]⟩
abbrev S8x256x1x1 : Shape := ⟨4, ![8, 256, 1, 1]⟩
abbrev S8x1x8x128 : Shape := ⟨4, ![8, 1, 8, 128]⟩

abbrev nBuf : Space → Nat
  | .hbm => 8
  | .vmem => 7
  | .smem => 0
  | _ => 0

abbrev bufTy : (tb : Table) → Fin (tcTables nBuf tb) → BufTy
  | .hbm, ⟨0, _⟩ => ⟨S64x256x32x32, .f32⟩
  | .hbm, ⟨1, _⟩ => ⟨S128x256, .f32⟩
  | .hbm, ⟨2, _⟩ => ⟨S256x128, .f32⟩
  | .hbm, ⟨3, _⟩ => ⟨S256x1, .f32⟩
  | .hbm, ⟨4, _⟩ => ⟨S64x256x8x128, .f32⟩
  | .hbm, ⟨5, _⟩ => ⟨S1x256, .f32⟩
  | .hbm, ⟨6, _⟩ => ⟨S64x256x8x128, .f32⟩
  | .hbm, ⟨7, _⟩ => ⟨S64x256x32x32, .f32⟩
  | .local _ .vmem, ⟨0, _⟩ => ⟨S8x256x8x128, .f32⟩
  | .local _ .vmem, ⟨1, _⟩ => ⟨S8x256x8x128, .f32⟩
  | .local _ .vmem, ⟨2, _⟩ => ⟨S128x256, .f32⟩
  | .local _ .vmem, ⟨3, _⟩ => ⟨S256x128, .f32⟩
  | .local _ .vmem, ⟨4, _⟩ => ⟨S1x256, .f32⟩
  | .local _ .vmem, ⟨5, _⟩ => ⟨S8x256x8x128, .f32⟩
  | .local _ .vmem, ⟨6, _⟩ => ⟨S8x256x8x128, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x256x32x32_S64x256x8x128 : S64x256x32x32.ShapeCasts S64x256x8x128
  shapeCasts_S256x1_S1x256 : S256x1.ShapeCasts S1x256
  inb_S8x256x8x128_S8x256x8x128_0_0_0_0 : ∀ a, (![0, 0, 0, 0] : Fin 4 → Nat) a + S8x256x8x128.size a ≤ S8x256x8x128.size a
  h_S8x256x8x128 : 0 < S8x256x8x128.numel
  shapeCasts_S8x256x8x128_S8x256x8x128 : S8x256x8x128.ShapeCasts S8x256x8x128
  reduces_S8x256x8x128_S8x256 : S8x256x8x128.Reduces [2, 3] S8x256
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x256x1x1 : S1x256.ShapeCasts S1x256x1x1
  broadcasts_S1x256x1x1_S8x256x8x128 : S1x256x1x1.Broadcasts S8x256x8x128
  reduces_S8x256x8x128_S8x8x128 : S8x256x8x128.Reduces [1] S8x8x128
  shapeCasts_S8x256_S8x256x1x1 : S8x256.ShapeCasts S8x256x1x1
  shapeCasts_S8x8x128_S8x1x8x128 : S8x8x128.ShapeCasts S8x1x8x128
  broadcasts_S8x256x1x1_S8x256x8x128 : S8x256x1x1.Broadcasts S8x256x8x128
  broadcasts_S8x1x8x128_S8x256x8x128 : S8x1x8x128.Broadcasts S8x256x8x128
  shapeCasts_S64x256x8x128_S64x256x32x32 : S64x256x8x128.ShapeCasts S64x256x32x32
  dot_S8x256_S128x256_S8x128_1_1_0_0_n_n_wf : DotDims.WF S8x256 S128x256 S8x128 [1] [1] [0] [0] [] []
  dot_S8x128_S256x128_S8x256_1_1_0_0_n_n_wf : DotDims.WF S8x128 S256x128 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x128.size a ≤ S64x256x8x128.size a
  hwx0_0 : ∀ i : grid0.Coords, EltTy.bits .f32 = 32 ∨ (Rect.block (s := S64x256x8x128) S8x256x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x8x128.size a ≤ S64x256x8x128.size a
  hwx0_4 : ∀ i : grid0.Coords, EltTy.bits .f32 = 32 ∨ (Rect.block (s := S64x256x8x128) S8x256x8x128.size (cc0_transform_4 i) (hinb0_4 i)).WholeWords (EltTy.packing .f32)

variable [Facts₀]

def dot_S8x256_S128x256_S8x128_1_1_0_0_n_n : DotDims S8x256 S128x256 S8x128 where
  lhsContracting := [1]
  rhsContracting := [1]
  lhsNonContracting := [0]
  rhsNonContracting := [0]
  lhsBatch := []
  rhsBatch := []
  wf := dot_S8x256_S128x256_S8x128_1_1_0_0_n_n_wf
def dot_S8x128_S256x128_S8x256_1_1_0_0_n_n : DotDims S8x128 S256x128 S8x256 where
  lhsContracting := [1]
  rhsContracting := [1]
  lhsNonContracting := [0]
  rhsNonContracting := [0]
  lhsBatch := []
  rhsBatch := []
  wf := dot_S8x128_S256x128_S8x256_1_1_0_0_n_n_wf

abbrev win0_0 : Pipeline.Window sig grid0 :=
  Pipeline.Window.ofSpec (Memref.whole main_v0) S8x256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x256x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S128x256 : Shape := ⟨2, ![128, 256]⟩
abbrev S256x128 : Shape := ⟨2, ![256, 128]⟩
abbrev S256x1 : Shape := ⟨2, ![256, 1]⟩
abbrev S64x256x1024 : Shape := ⟨3, ![64, 256, 1024]⟩
abbrev S1x256 : Shape := ⟨2, ![1, 256]⟩
abbrev S1x256x1024 : Shape := ⟨3, ![1, 256, 1024]⟩
abbrev S256x1024 : Shape := ⟨2, ![256, 1024]⟩
abbrev S1024x1 : Shape := ⟨2, ![1024, 1]⟩
abbrev S128x1 : Shape := ⟨2, ![128, 1]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S64x256x32x32, .f32⟩
  | .hbm, ⟨1, _⟩ => ⟨S128x256, .f32⟩
  | .hbm, ⟨2, _⟩ => ⟨S256x128, .f32⟩
  | .hbm, ⟨3, _⟩ => ⟨S256x1, .f32⟩
  | .hbm, ⟨4, _⟩ => ⟨S64x256x1024, .f32⟩
  | .hbm, ⟨5, _⟩ => ⟨S1x256, .f32⟩
  | .hbm, ⟨6, _⟩ => ⟨S64x256x1024, .f32⟩
  | .hbm, ⟨7, _⟩ => ⟨S64x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S128x256, .f32⟩
  | .local _ .vmem, ⟨3, _⟩ => ⟨S256x128, .f32⟩
  | .local _ .vmem, ⟨4, _⟩ => ⟨S1x256, .f32⟩
  | .local _ .vmem, ⟨5, _⟩ => ⟨S1x256x1024, .f32⟩
  | .local _ .vmem, ⟨6, _⟩ => ⟨S1x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x256x32x32_S64x256x1024 : S64x256x32x32.ShapeCasts S64x256x1024
  shapeCasts_S256x1_S1x256 : S256x1.ShapeCasts S1x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S256x1_S256x1024 : S256x1.Broadcasts S256x1024
  broadcasts_S1x1024_S256x1024 : S1x1024.Broadcasts S256x1024
  shapeCasts_S256x1024_S1x256x1024 : S256x1024.ShapeCasts S1x256x1024
  shapeCasts_S64x256x1024_S64x256x32x32 : S64x256x1024.ShapeCasts S64x256x32x32
  dot_S256x1024_S1024x1_S256x1_1_0_0_1_n_n_wf : DotDims.WF S256x1024 S1024x1 S256x1 [1] [0] [0] [1] [] []
  dot_S128x256_S256x1_S128x1_1_0_0_1_n_n_wf : DotDims.WF S128x256 S256x1 S128x1 [1] [0] [0] [1] [] []
  dot_S256x128_S128x1_S256x1_1_0_0_1_n_n_wf : DotDims.WF S256x128 S128x1 S256x1 [1] [0] [0] [1] [] []
  dot_S1x256_S256x1024_S1x1024_1_0_0_1_n_n_wf : DotDims.WF S1x256 S256x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S64x256x1024.size a
  hwx0_4 : ∀ i : grid0.Coords, EltTy.bits .f32 = 32 ∨ (Rect.block (s := S64x256x1024) S1x256x1024.size (cc0_transform_4 i) (hinb0_4 i)).WholeWords (EltTy.packing .f32)

variable [Facts₀]

def dot_S256x1024_S1024x1_S256x1_1_0_0_1_n_n : DotDims S256x1024 S1024x1 S256x1 where
  lhsContracting := [1]
  rhsContracting := [0]
  lhsNonContracting := [0]
  rhsNonContracting := [1]
  lhsBatch := []
  rhsBatch := []
  wf := dot_S256x1024_S1024x1_S256x1_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The squeeze-and-excitation function both programs compute, index by index over the extended reals.

  The input `u` holds 64 feature maps of 256 channels, each channel a 32 × 32 map read as 1024 positions in
  row-major order (position `p` is row `p / 32`, column `p % 32`). Per batch element:
  * the channel gate: each channel's positions are summed and scaled by `2⁻¹⁰` (`pooled`), mixed down to 128
    features by `w_sq` (`squeezed`), mixed back up to 256 channels by `w_ex` (`excited`), then passed through the
    logistic function;
  * the spatial gate: at each position the channels are summed with the weights `w_sse` (`spatial`), then
    passed through the logistic function;
  * the result at (channel, position) is the input there times the sum of the two gates (`gated`).
  `out` is `gated` laid out as the input is.
  Also here: a sum over 8 rows of 128 lanes is the sum over the 1024 positions (`sum_rows_lanes`).
-/
import Idealize.ShloMosaic.PureOps.Ideal
import Idealize.ShloMosaic.Lib.ValueIdx
import Mathlib.Algebra.BigOperators.Fin

noncomputable section

namespace Cert.Scse

open Idealize.ShloMosaic Idealize.ShloMosaic.ValueIdx

/-- The scale of the spatial mean: the f32 word of `2⁻¹⁰ = 1 / 1024`, the same word in both programs. -/
def inv : EReal := Ideal.ofBits .f32 0x3A800000#32

/-- The input at batch element `B`, channel `c`, position `p` of the 32 × 32 map. -/
def feat (u : (⟨4, ![64, 256, 32, 32]⟩ : Shape).Idx → EReal) (B : Fin 64) (c : Fin 256) (p : Fin 1024) : EReal :=
  u (ix4 B c (⟨p.val / 32, by have := p.isLt; omega⟩ : Fin 32) (⟨p.val % 32, by omega⟩ : Fin 32))

/-- A channel's spatial mean: the sum over its positions times `2⁻¹⁰`. -/
def pooled (u : (⟨4, ![64, 256, 32, 32]⟩ : Shape).Idx → EReal) (B : Fin 64) (c : Fin 256) : EReal :=
  (∑ p : Fin 1024, feat u B c p) * inv

/-- The means mixed down to 128 features by `w_sq`. -/
def squeezed (u : (⟨4, ![64, 256, 32, 32]⟩ : Shape).Idx → EReal) (wsq : (⟨2, ![128, 256]⟩ : Shape).Idx → EReal)
    (B : Fin 64) (j : Fin 128) : EReal :=
  ∑ c : Fin 256, pooled u B c * wsq (ix2 j c)

/-- The features mixed back up to 256 channels by `w_ex`. -/
def excited (u : (⟨4, ![64, 256, 32, 32]⟩ : Shape).Idx → EReal) (wsq : (⟨2, ![128, 256]⟩ : Shape).Idx → EReal)
    (wex : (⟨2, ![256, 128]⟩ : Shape).Idx → EReal) (B : Fin 64) (c : Fin 256) : EReal :=
  ∑ j : Fin 128, squeezed u wsq B j * wex (ix2 c j)

/-- The channels at one position summed with the weights `w_sse`. -/
def spatial (u : (⟨4, ![64, 256, 32, 32]⟩ : Shape).Idx → EReal) (ws : (⟨2, ![256, 1]⟩ : Shape).Idx → EReal)
    (B : Fin 64) (p : Fin 1024) : EReal :=
  ∑ c : Fin 256, feat u B c p * ws (ix2 c (0 : Fin 1))

/-- The result at (batch element, channel, position): the input times the sum of its two gates. -/
def gated (u : (⟨4, ![64, 256, 32, 32]⟩ : Shape).Idx → EReal) (wsq : (⟨2, ![128, 256]⟩ : Shape).Idx → EReal)
    (wex : (⟨2, ![256, 128]⟩ : Shape).Idx → EReal) (ws : (⟨2, ![256, 1]⟩ : Shape).Idx → EReal)
    (B : Fin 64) (c : Fin 256) (p : Fin 1024) : EReal :=
  feat u B c p * (Ideal.logistic (excited u wsq wex B c) + Ideal.logistic (spatial u ws B p))

/-- The result array, laid out as the input: entry (B, c, r, s) is `gated` at position `32 r + s`. -/
def out (u : (⟨4, ![64, 256, 32, 32]⟩ : Shape).Idx → EReal) (wsq : (⟨2, ![128, 256]⟩ : Shape).Idx → EReal)
    (wex : (⟨2, ![256, 128]⟩ : Shape).Idx → EReal) (ws : (⟨2, ![256, 1]⟩ : Shape).Idx → EReal) :
    (⟨4, ![64, 256, 32, 32]⟩ : Shape).Idx → EReal :=
  fun i => gated u wsq wex ws (i 0) (i 1)
    (⟨(i 2).val * 32 + (i 3).val, by have h2 : (i 2).val < 32 := (i 2).isLt; have h3 : (i 3).val < 32 := (i 3).isLt; omega⟩ : Fin 1024)

/-- A sum over 8 rows of 128 lanes is the sum over the 1024 positions `128 h + l`. -/
theorem sum_rows_lanes (f : Fin 1024 → EReal) :
    (∑ h : Fin 8, ∑ l : Fin 128, f (⟨h.val * 128 + l.val, by have := h.isLt; have := l.isLt; omega⟩ : Fin 1024))
      = ∑ p : Fin 1024, f p := by
  rw [← Finset.sum_product', Finset.univ_product_univ]
  refine Fintype.sum_equiv (finProdFinEquiv (m := 8) (n := 128)) _ _ fun x => ?_
  congr 1
  apply Fin.ext
  show x.1.val * 128 + x.2.val = x.2.val + 128 * x.1.val
  omega

end Cert.Scse

end
-- ==== Proof.KPayload.lean ====
/-
  The kernel body's stored value, read at one entry of its [8, 256, 8, 128] block.

  At block entry (b, c, h, l) the body stores the loaded input there times the sum of two logistic gates: the channel
  gate, whose argument sums over 128 features `j` the product of `x2 (c, j)` with the feature's mix
  `∑ c', mean (b, c') · x1 (j, c')`, where `mean (b, c')` is the sum of the block over its 8 rows and 128 lanes at
  (b, c') times `2⁻¹⁰`; and the spatial gate, whose argument sums over the 256 channels `c'` the block at
  (b, c', h, l) times the weight `x3 (0, c')`.
-/
import proofs.«106113_g2000106105083958_pallasbulk_797_8_alg».proof.Proof.Gen.KernelIdeal.Skeleton
import proofs.«106113_g2000106105083958_pallasbulk_797_8_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The sum over the entries of the block whose first two coordinates are (b, c): the double sum over the
    8 rows and 128 lanes. -/
theorem sum_rows_lanes_of_drop (hr : S8x256x8x128.Reduces [2, 3] S8x256) (x : S8x256x8x128.Idx → EReal)
    (b : Fin 8) (c : Fin 256) :
    (∑ i ∈ Finset.univ.filter (fun i => hr.drop i = ix2 b c), x i)
      = ∑ h' : Fin 8, ∑ l' : Fin 128, x (ix4 b c h' l') := by
  rw [← Finset.sum_product', Finset.univ_product_univ]
  refine Finset.sum_nbij' (fun i => ((⟨(i 2).val, (i 2).isLt⟩ : Fin 8), (⟨(i 3).val, (i 3).isLt⟩ : Fin 128)))
    (fun p => ix4 b c p.1 p.2) ?_ ?_ ?_ ?_ ?_
  · intro i _; exact Finset.mem_univ _
  · intro p _
    refine Finset.mem_filter.2 ⟨Finset.mem_univ _, ?_⟩
    funext a
    refine Fin.ext ?_
    match a with
    | ⟨0, _⟩ => exact hr.drop_apply_val_of_eq _ 0 0
    | ⟨1, _⟩ => exact hr.drop_apply_val_of_eq _ 1 1
  · intro i hi
    have hj := (Finset.mem_filter.1 hi).2
    have h0 : (i 0).val = b.val := by
      rw [← hr.drop_apply_val_of_eq i 0 0, hj]
    have h1 : (i 1).val = c.val := by
      rw [← hr.drop_apply_val_of_eq i 1 1, hj]
    funext e
    refine Fin.ext ?_
    match e with
    | ⟨0, _⟩ => exact h0.symm
    | ⟨1, _⟩ => exact h1.symm
    | ⟨2, _⟩ => rfl
    | ⟨3, _⟩ => rfl
  · intro p _; rfl
  · intro i hi
    have hj := (Finset.mem_filter.1 hi).2
    have h0 : (i 0).val = b.val := by
      rw [← hr.drop_apply_val_of_eq i 0 0, hj]
    have h1 : (i 1).val = c.val := by
      rw [← hr.drop_apply_val_of_eq i 1 1, hj]
    refine congrArg x ?_
    funext e
    refine Fin.ext ?_
    match e with
    | ⟨0, _⟩ => exact h0
    | ⟨1, _⟩ => exact h1
    | ⟨2, _⟩ => rfl
    | ⟨3, _⟩ => rfl

/-! ### The two contractions' operand indices, coordinate by coordinate -/

theorem lhs_dot_S8x256_S128x256_S8x128_1_1_0_0_n_n_0 (j : S8x128.Idx)
    (k : dot_S8x256_S128x256_S8x128_1_1_0_0_n_n.contr.Idx) :
    (dot_S8x256_S128x256_S8x128_1_1_0_0_n_n.lhsIdx j k 0 : ℕ) = j 0 := by
  simp [DotDims.lhsIdx, dot_S8x256_S128x256_S8x128_1_1_0_0_n_n]; rfl
theorem lhs_dot_S8x256_S128x256_S8x128_1_1_0_0_n_n_1 (j : S8x128.Idx)
    (k : dot_S8x256_S128x256_S8x128_1_1_0_0_n_n.contr.Idx) :
    (dot_S8x256_S128x256_S8x128_1_1_0_0_n_n.lhsIdx j k 1 : ℕ) = k ⟨0, by decide⟩ := by
  simp [DotDims.lhsIdx, dot_S8x256_S128x256_S8x128_1_1_0_0_n_n]; rfl
theorem rhs_dot_S8x256_S128x256_S8x128_1_1_0_0_n_n_0 (j : S8x128.Idx)
    (k : dot_S8x256_S128x256_S8x128_1_1_0_0_n_n.contr.Idx) :
    (dot_S8x256_S128x256_S8x128_1_1_0_0_n_n.rhsIdx j k 0 : ℕ) = j 1 := by
  simp [DotDims.rhsIdx, dot_S8x256_S128x256_S8x128_1_1_0_0_n_n]; rfl
theorem rhs_dot_S8x256_S128x256_S8x128_1_1_0_0_n_n_1 (j : S8x128.Idx)
    (k : dot_S8x256_S128x256_S8x128_1_1_0_0_n_n.contr.Idx) :
    (dot_S8x256_S128x256_S8x128_1_1_0_0_n_n.rhsIdx j k 1 : ℕ) = k ⟨0, by decide⟩ := by
  simp [DotDims.rhsIdx, dot_S8x256_S128x256_S8x128_1_1_0_0_n_n]; rfl

theorem lhs_dot_S8x128_S256x128_S8x256_1_1_0_0_n_n_0 (j : S8x256.Idx)
    (k : dot_S8x128_S256x128_S8x256_1_1_0_0_n_n.contr.Idx) :
    (dot_S8x128_S256x128_S8x256_1_1_0_0_n_n.lhsIdx j k 0 : ℕ) = j 0 := by
  simp [DotDims.lhsIdx, dot_S8x128_S256x128_S8x256_1_1_0_0_n_n]; rfl
theorem lhs_dot_S8x128_S256x128_S8x256_1_1_0_0_n_n_1 (j : S8x256.Idx)
    (k : dot_S8x128_S256x128_S8x256_1_1_0_0_n_n.contr.Idx) :
    (dot_S8x128_S256x128_S8x256_1_1_0_0_n_n.lhsIdx j k 1 : ℕ) = k ⟨0, by decide⟩ := by
  simp [DotDims.lhsIdx, dot_S8x128_S256x128_S8x256_1_1_0_0_n_n]; rfl
theorem rhs_dot_S8x128_S256x128_S8x256_1_1_0_0_n_n_0 (j : S8x256.Idx)
    (k : dot_S8x128_S256x128_S8x256_1_1_0_0_n_n.contr.Idx) :
    (dot_S8x128_S256x128_S8x256_1_1_0_0_n_n.rhsIdx j k 0 : ℕ) = j 1 := by
  simp [DotDims.rhsIdx, dot_S8x128_S256x128_S8x256_1_1_0_0_n_n]; rfl
theorem rhs_dot_S8x128_S256x128_S8x256_1_1_0_0_n_n_1 (j : S8x256.Idx)
    (k : dot_S8x128_S256x128_S8x256_1_1_0_0_n_n.contr.Idx) :
    (dot_S8x128_S256x128_S8x256_1_1_0_0_n_n.rhsIdx j k 1 : ℕ) = k ⟨0, by decide⟩ := by
  simp [DotDims.rhsIdx, dot_S8x128_S256x128_S8x256_1_1_0_0_n_n]; rfl

/-- The first product read at (b, j): the sum over the 256 channels. -/
theorem matmul_S8x256_S128x256_apply (lhs : FVec Ideal S8x256 .f32) (rhs : FVec Ideal S128x256 .f32) (b : Fin 8) (j : Fin 128) :
    matmul (F := Ideal) dot_S8x256_S128x256_S8x128_1_1_0_0_n_n none lhs rhs (constant S8x128 .f32 0x00000000#32) (ix2 b j)
      = ∑ c' : Fin 256, lhs (ix2 b c') * rhs (ix2 j c') := by
  refine (Ideal.matmul_constant_zero_apply _ none lhs rhs (ix2 b j)).trans ?_
  refine (Equiv.sum_comp (contrEquiv1 dot_S8x256_S128x256_S8x128_1_1_0_0_n_n 256 (by decide) (by decide)).symm _).symm.trans ?_
  refine Finset.sum_congr rfl fun c' _ => ?_
  congr 1
  · refine congrArg lhs (funext fun a => Fin.ext ?_)
    match a with
    | ⟨0, _⟩ => exact lhs_dot_S8x256_S128x256_S8x128_1_1_0_0_n_n_0 _ _
    | ⟨1, _⟩ =>
      exact (lhs_dot_S8x256_S128x256_S8x128_1_1_0_0_n_n_1 _ _).trans (contrEquiv1_symm_val _ 256 (by decide) (by decide) c')
  · refine congrArg rhs (funext fun a => Fin.ext ?_)
    match a with
    | ⟨0, _⟩ => exact rhs_dot_S8x256_S128x256_S8x128_1_1_0_0_n_n_0 _ _
    | ⟨1, _⟩ =>
      exact (rhs_dot_S8x256_S128x256_S8x128_1_1_0_0_n_n_1 _ _).trans (contrEquiv1_symm_val _ 256 (by decide) (by decide) c')

/-- The second product read at (b, c): the sum over the 128 features. -/
theorem matmul_S8x128_S256x128_apply (lhs : FVec Ideal S8x128 .f32) (rhs : FVec Ideal S256x128 .f32) (b : Fin 8) (c : Fin 256) :
    matmul (F := Ideal) dot_S8x128_S256x128_S8x256_1_1_0_0_n_n none lhs rhs (constant S8x256 .f32 0x00000000#32) (ix2 b c)
      = ∑ j : Fin 128, lhs (ix2 b j) * rhs (ix2 c j) := by
  refine (Ideal.matmul_constant_zero_apply _ none lhs rhs (ix2 b c)).trans ?_
  refine (Equiv.sum_comp (contrEquiv1 dot_S8x128_S256x128_S8x256_1_1_0_0_n_n 128 (by decide) (by decide)).symm _).symm.trans ?_
  refine Finset.sum_congr rfl fun j _ => ?_
  congr 1
  · refine congrArg lhs (funext fun a => Fin.ext ?_)
    match a with
    | ⟨0, _⟩ => exact lhs_dot_S8x128_S256x128_S8x256_1_1_0_0_n_n_0 _ _
    | ⟨1, _⟩ =>
      exact (lhs_dot_S8x128_S256x128_S8x256_1_1_0_0_n_n_1 _ _).trans (contrEquiv1_symm_val _ 128 (by decide) (by decide) j)
  · refine congrArg rhs (funext fun a => Fin.ext ?_)
    match a with
    | ⟨0, _⟩ => exact rhs_dot_S8x128_S256x128_S8x256_1_1_0_0_n_n_0 _ _
    | ⟨1, _⟩ =>
      exact (rhs_dot_S8x128_S256x128_S8x256_1_1_0_0_n_n_1 _ _).trans (contrEquiv1_symm_val _ 128 (by decide) (by decide) j)

/-- The one-axis reduction over the channels read at (b, h, l): the sum over the 256 channels. -/
theorem reduce_channels_apply (src : FVec Ideal S8x256x8x128 .f32) (hr : S8x256x8x128.Reduces [1] S8x8x128)
    (hφ : FKind.Formats .f32) (hacc : (0x00000000#32 : BitVec 32) = FKind.add.neutral .f32 hφ)
    (b : Fin 8) (h : Fin 8) (l : Fin 128) :
    multiReduction (F := Ideal) .add [1] S8x8x128 src 0x00000000#32 hr hφ hacc (ix3 b h l)
      = ∑ c' : Fin 256, src (ix4 b c' h l) := by
  refine (Ideal.multiReduction_add_single src _ hr hφ hacc (ix3 b h l)).trans ?_
  refine Finset.sum_congr rfl fun c' _ => congrArg src (funext fun a => Fin.ext ?_)
  match a with
  | ⟨0, _⟩ => rfl
  | ⟨1, _⟩ => rfl
  | ⟨2, _⟩ => rfl
  | ⟨3, _⟩ => rfl

/-- The two-axis reduction over rows and lanes read at (b, c): the double sum. -/
theorem reduce_rows_lanes_apply (src : FVec Ideal S8x256x8x128 .f32) (hr : S8x256x8x128.Reduces [2, 3] S8x256)
    (hφ : FKind.Formats .f32) (hacc : (0x00000000#32 : BitVec 32) = FKind.add.neutral .f32 hφ)
    (b : Fin 8) (c : Fin 256) :
    multiReduction (F := Ideal) .add [2, 3] S8x256 src 0x00000000#32 hr hφ hacc (ix2 b c)
      = ∑ h' : Fin 8, ∑ l' : Fin 128, src (ix4 b c h' l') :=
  sum_rows_lanes_of_drop hr src b c

/-- The weight row, viewed [1, 256, 1, 1] and broadcast over the block, read at (b, c', h, l): the weight of channel c'. -/
theorem bcast_S1x256_apply (w : FVec Ideal S1x256 .f32) (hc : S1x256.ShapeCasts S1x256x1x1)
    (hb : S1x256x1x1.Broadcasts S8x256x8x128) (b : Fin 8) (c' : Fin 256) (h : Fin 8) (l : Fin 128) :
    broadcastTo S8x256x8x128 (shapeCast S1x256x1x1 w hc) hb (ix4 b c' h l) = w (ix2 (0 : Fin 1) c') := by
  refine (broadcastTo_apply _ hb (ix4 b c' h l) (ix4 (0 : Fin 1) c' (0 : Fin 1) (0 : Fin 1)) ?_).trans ?_
  · intro a
    match a with
    | ⟨0, _⟩ => rfl
    | ⟨1, _⟩ => rfl
    | ⟨2, _⟩ => rfl
    | ⟨3, _⟩ => rfl
  · refine shapeCast_apply w hc _ (ix2 (0 : Fin 1) c') ?_
    rw [Shape.rowMajor_val_two, Shape.rowMajor_val_four]
    show 0 * 256 + c'.val = ((0 * 256 + c'.val) * 1 + 0) * 1 + 0
    omega

/-- A [8, 256] value, viewed [8, 256, 1, 1] and broadcast over the block, read at (b, c, h, l): the value at (b, c). -/
theorem bcast_S8x256_apply (v : FVec Ideal S8x256 .f32) (hc : S8x256.ShapeCasts S8x256x1x1)
    (hb : S8x256x1x1.Broadcasts S8x256x8x128) (b : Fin 8) (c : Fin 256) (h : Fin 8) (l : Fin 128) :
    broadcastTo S8x256x8x128 (shapeCast S8x256x1x1 v hc) hb (ix4 b c h l) = v (ix2 b c) := by
  refine (broadcastTo_apply _ hb (ix4 b c h l) (ix4 b c (0 : Fin 1) (0 : Fin 1)) ?_).trans ?_
  · intro a
    match a with
    | ⟨0, _⟩ => rfl
    | ⟨1, _⟩ => rfl
    | ⟨2, _⟩ => rfl
    | ⟨3, _⟩ => rfl
  · refine shapeCast_apply v hc _ (ix2 b c) ?_
    rw [Shape.rowMajor_val_two, Shape.rowMajor_val_four]
    show b.val * 256 + c.val = ((b.val * 256 + c.val) * 1 + 0) * 1 + 0
    omega

/-- A [8, 8, 128] value, viewed [8, 1, 8, 128] and broadcast over the block, read at (b, c, h, l): the value at (b, h, l). -/
theorem bcast_S8x8x128_apply (v : FVec Ideal S8x8x128 .f32) (hc : S8x8x128.ShapeCasts S8x1x8x128)
    (hb : S8x1x8x128.Broadcasts S8x256x8x128) (b : Fin 8) (c : Fin 256) (h : Fin 8) (l : Fin 128) :
    broadcastTo S8x256x8x128 (shapeCast S8x1x8x128 v hc) hb (ix4 b c h l) = v (ix3 b h l) := by
  refine (broadcastTo_apply _ hb (ix4 b c h l) (ix4 b (0 : Fin 1) h l) ?_).trans ?_
  · intro a
    match a with
    | ⟨0, _⟩ => rfl
    | ⟨1, _⟩ => rfl
    | ⟨2, _⟩ => rfl
    | ⟨3, _⟩ => rfl
  · refine shapeCast_apply v hc _ (ix3 b h l) ?_
    rw [Shape.rowMajor_val_three, Shape.rowMajor_val_four]
    show (b.val * 8 + h.val) * 128 + l.val = ((b.val * 1 + 0) * 8 + h.val) * 128 + l.val
    omega

/-- The stored value at block entry (b, c, h, l). -/
theorem pay_apply (x0 : FVec Ideal S8x256x8x128 .f32) (x1 : FVec Ideal S128x256 .f32) (x2 : FVec Ideal S256x128 .f32)
    (x3 : FVec Ideal S1x256 .f32) (b : Fin 8) (c : Fin 256) (h : Fin 8) (l : Fin 128) :
    k0_pay1 (F := Ideal) x0 x1 x2 x3 (ix4 b c h l)
      = x0 (ix4 b c h l)
        * (Ideal.logistic (∑ j : Fin 128, (∑ c' : Fin 256,
              ((∑ h' : Fin 8, ∑ l' : Fin 128, x0 (ix4 b c' h' l')) * Cert.Scse.inv) * x1 (ix2 j c')) * x2 (ix2 c j))
          + Ideal.logistic (∑ c' : Fin 256, x0 (ix4 b c' h l) * x3 (ix2 (0 : Fin 1) c'))) := by
  unfold k0_pay1
  simp only [shapeCast_self]
  refine congrArg (x0 (ix4 b c h l) * ·) ?_
  refine congrArg₂ (· + ·) ?_ ?_
  · -- the channel gate: broadcast of the logistic of the second product
    refine (bcast_S8x256_apply _ _ _ b c h l).trans ?_
    refine congrArg Ideal.logistic ?_
    refine (matmul_S8x128_S256x128_apply _ _ b c).trans ?_
    refine Finset.sum_congr rfl fun j _ => ?_
    refine congrArg (· * x2 (ix2 c j)) ?_
    refine (matmul_S8x256_S128x256_apply _ _ b j).trans ?_
    refine Finset.sum_congr rfl fun c' _ => ?_
    refine congrArg (· * x1 (ix2 j c')) ?_
    refine congrArg (· * Cert.Scse.inv) ?_
    exact reduce_rows_lanes_apply x0 _ _ _ b c'
  · -- the spatial gate: broadcast of the logistic of the channel sum
    refine (bcast_S8x8x128_apply _ _ _ b c h l).trans ?_
    refine congrArg Ideal.logistic ?_
    refine (reduce_channels_apply _ _ _ _ b h l).trans ?_
    refine Finset.sum_congr rfl fun c' _ => ?_
    refine congrArg (x0 (ix4 b c' h l) * ·) ?_
    exact bcast_S1x256_apply x3 _ _ b c' h l

end Cert.KernelIdeal.Pay

end
-- ==== Proof.KValue.lean ====
/-
  What the kernel program leaves in its result array, as the specification's function of the four arguments.

  The program views the input as [64, 256, 8, 128] (position `p` of a feature map is row `p / 128`, lane `p % 128`)
  and the spatial weights as a row [1, 256]; its one grid of 8 points takes batch elements `8 t … 8 t + 7` at point
  `t` with the three weight arrays whole; the result is viewed back as [64, 256, 32, 32].
  Here: the two views before the grid read at coordinates (`V_v0_apply`, `V_v1_apply`); each block at a point read
  at coordinates (`iblk0_apply` … `iblk3_apply`); a point's stored block is the specification restricted to the
  point's batch elements (`block_value`, `flushed_eq`); the 8 blocks cover the array (`cover`, `final`); the view
  after the grid (`tail_v3`); and the run (`run`).
-/
import proofs.«106113_g2000106105083958_pallasbulk_797_8_alg».proof.Proof.Gen.KernelIdeal.Frame
import proofs.«106113_g2000106105083958_pallasbulk_797_8_alg».proof.Proof.KPayload
import proofs.«106113_g2000106105083958_pallasbulk_797_8_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-! ## The two views before the grid -/

/-- The input viewed [64, 256, 8, 128]. -/
theorem V_v0 (c : Dev nD) : (V m c main_v0 : S64x256x8x128.Idx → EReal)
    = shapeCast S64x256x8x128 (m ((c : Thread nD τ).loc main_arg0) : S64x256x32x32.Idx → EReal) shapeCasts_S64x256x32x32_S64x256x8x128 := by
  show StableHlo.after hostOps0 (fun b => m (c, b)) (Proc.devRef .tc main_v0) = _
  after_results
  rfl

/-- The spatial weights viewed as a row. -/
theorem V_v1 (c : Dev nD) : (V m c main_v1 : S1x256.Idx → EReal)
    = shapeCast S1x256 (m ((c : Thread nD τ).loc main_arg3) : S256x1.Idx → EReal) shapeCasts_S256x1_S1x256 := by
  show StableHlo.after hostOps0 (fun b => m (c, b)) (Proc.devRef .tc main_v1) = _
  after_results
  rfl

/-- Entry (B, c', h, l) of the viewed input is the feature map's position `128 h + l`: the two arrays share the
    row-major order. -/
theorem V_v0_apply (c : Dev nD) (B : Fin 64) (c' : Fin 256) (h : Fin 8) (l : Fin 128) :
    (V m c main_v0 : S64x256x8x128.Idx → EReal) (ix4 B c' h l)
      = Cert.Scse.feat (m ((c : Thread nD τ).loc main_arg0)) B c'
          (⟨h.val * 128 + l.val, by have := h.isLt; have := l.isLt; omega⟩ : Fin 1024) := by
  rw [V_v0]
  unfold Cert.Scse.feat
  refine shapeCast_apply (s := S64x256x32x32) (t := S64x256x8x128) _ _ _ _ ?_
  rw [Shape.rowMajor_val_four, Shape.rowMajor_val_four]
  have hh := h.isLt
  have hl := l.isLt
  show (((B.val * 256 + c'.val) * 32 + (h.val * 128 + l.val) / 32) * 32 + (h.val * 128 + l.val) % 32)
    = (((B.val * 256 + c'.val) * 8 + h.val) * 128 + l.val)
  omega

/-- Entry (0, c') of the row of spatial weights is the weight of channel `c'`. -/
theorem V_v1_apply (c : Dev nD) (c' : Fin 256) :
    (V m c main_v1 : S1x256.Idx → EReal) (ix2 (0 : Fin 1) c')
      = (m ((c : Thread nD τ).loc main_arg3) : S256x1.Idx → EReal) (ix2 c' (0 : Fin 1)) := by
  rw [V_v1]
  refine shapeCast_apply (s := S256x1) (t := S1x256) _ _ _ _ ?_
  rw [Shape.rowMajor_val_two, Shape.rowMajor_val_two]
  show c'.val * 1 + 0 = 0 * 256 + c'.val
  omega

/-! ## The blocks at a point -/

theorem grid_lt (t : Fin cfg0.N) : t.val < 8 := by
  have h := t.isLt
  have e : cfg0.N = 8 := N_0
  omega

/-- The index maps over the grid: the input's and the result's block index is the point on the batch axis and zero
    elsewhere; the weights' blocks are their whole arrays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_4.index t (0 : Fin 4) = t.val ∧ win0_4.index t (1 : Fin 4) = 0 ∧ win0_4.index t (2 : Fin 4) = 0 ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The batch element a block entry belongs to. -/
def batchOf (t : Fin cfg0.N) (b : Fin 8) : Fin 64 := ⟨8 * t.val + b.val, by have := grid_lt t; have := b.isLt; omega⟩

/-- The input block at point `t` holds batch elements `8 t + b`. -/
theorem iblk0_apply (c : Dev nD) (t : Fin cfg0.N) (b : Fin 8) (c' : Fin 256) (h : Fin 8) (l : Fin 128) :
    (iblk m c 0 t : Vec Ideal S8x256x8x128 .f32) (ix4 b c' h l)
      = (V m c main_v0 : S64x256x8x128.Idx → EReal) (ix4 (batchOf t b) c' h l) := by
  obtain ⟨e0, e1, e2, e3, -⟩ := idx_facts t
  unfold iblk
  rw [View.read_apply]
  show V m c main_v0 _ = V m c main_v0 _
  congr 1
  funext a
  apply Fin.ext
  match a with
  | ⟨0, _⟩ => show win0_0.index t (0 : Fin 4) * 8 + 1 * b.val = 8 * t.val + b.val; rw [e0]; omega
  | ⟨1, _⟩ => show win0_0.index t (1 : Fin 4) * 256 + 1 * c'.val = c'.val; rw [e1]; omega
  | ⟨2, _⟩ => show win0_0.index t (2 : Fin 4) * 8 + 1 * h.val = h.val; rw [e2]; omega
  | ⟨3, _⟩ => show win0_0.index t (3 : Fin 4) * 128 + 1 * l.val = l.val; rw [e3]; omega

/-- The squeeze weights' block is the whole array. -/
theorem iblk1_apply (c : Dev nD) (t : Fin cfg0.N) (j : Fin 128) (c' : Fin 256) :
    (iblk m c 1 t : Vec Ideal S128x256 .f32) (ix2 j c')
      = (m ((c : Thread nD τ).loc main_arg1) : S128x256.Idx → EReal) (ix2 j c') := by
  obtain ⟨-, -, -, -, -, -, -, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 128 + 1 * j.val = j.val; rw [e0]; omega
  | ⟨1, _⟩ => show win0_1.index t (1 : Fin 2) * 256 + 1 * c'.val = c'.val; rw [e1]; omega

/-- The excitation weights' block is the whole array. -/
theorem iblk2_apply (c : Dev nD) (t : Fin cfg0.N) (c' : Fin 256) (j : Fin 128) :
    (iblk m c 2 t : Vec Ideal S256x128 .f32) (ix2 c' j)
      = (m ((c : Thread nD τ).loc main_arg2) : S256x128.Idx → EReal) (ix2 c' j) := by
  obtain ⟨-, -, -, -, -, -, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 256 + 1 * c'.val = c'.val; rw [e0]; omega
  | ⟨1, _⟩ => show win0_2.index t (1 : Fin 2) * 128 + 1 * j.val = j.val; rw [e1]; omega

/-- The row of spatial weights' block is the whole row. -/
theorem iblk3_apply (c : Dev nD) (t : Fin cfg0.N) (c' : Fin 256) :
    (iblk m c 3 t : Vec Ideal S1x256 .f32) (ix2 (0 : Fin 1) c')
      = (m ((c : Thread nD τ).loc main_arg3) : S256x1.Idx → EReal) (ix2 c' (0 : Fin 1)) := by
  obtain ⟨-, -, -, -, -, -, -, -, -, -, -, -, e0, e1⟩ := idx_facts t
  rw [← V_v1_apply m c c']
  unfold iblk
  rw [View.read_apply]
  show V m c main_v1 _ = V m c main_v1 _
  congr 1
  funext a
  apply Fin.ext
  match a with
  | ⟨0, _⟩ => show win0_3.index t (0 : Fin 2) * 1 + 1 * 0 = 0; rw [e0]
  | ⟨1, _⟩ => show win0_3.index t (1 : Fin 2) * 256 + 1 * c'.val = c'.val; rw [e1]; omega

/-! ## What a point writes back -/

/-- A stored block whose loaded blocks are the arguments at batch element `B` (entry `b` of the block) holds the
    specification's value there: the sum over rows and lanes is the sum over positions. -/
theorem block_value (x0 : FVec Ideal S8x256x8x128 .f32) (x1 : FVec Ideal S128x256 .f32) (x2 : FVec Ideal S256x128 .f32)
    (x3 : FVec Ideal S1x256 .f32)
    (u : (⟨4, ![64, 256, 32, 32]⟩ : Shape).Idx → EReal) (wsq : (⟨2, ![128, 256]⟩ : Shape).Idx → EReal)
    (wex : (⟨2, ![256, 128]⟩ : Shape).Idx → EReal) (ws : (⟨2, ![256, 1]⟩ : Shape).Idx → EReal)
    (B : Fin 64) (b : Fin 8)
    (h0 : ∀ (c' : Fin 256) (h : Fin 8) (l : Fin 128), x0 (ix4 b c' h l)
      = Cert.Scse.feat u B c' (⟨h.val * 128 + l.val, by have := h.isLt; have := l.isLt; omega⟩ : Fin 1024))
    (h1 : ∀ (j : Fin 128) (c' : Fin 256), x1 (ix2 j c') = wsq (ix2 j c'))
    (h2 : ∀ (c' : Fin 256) (j : Fin 128), x2 (ix2 c' j) = wex (ix2 c' j))
    (h3 : ∀ c' : Fin 256, x3 (ix2 (0 : Fin 1) c') = ws (ix2 c' (0 : Fin 1)))
    (c : Fin 256) (h : Fin 8) (l : Fin 128) :
    k0_pay1 (F := Ideal) x0 x1 x2 x3 (ix4 b c h l)
      = Cert.Scse.gated u wsq wex ws B c (⟨h.val * 128 + l.val, by have := h.isLt; have := l.isLt; omega⟩ : Fin 1024) := by
  rw [Cert.KernelIdeal.Pay.pay_apply]
  unfold Cert.Scse.gated Cert.Scse.excited Cert.Scse.squeezed Cert.Scse.pooled Cert.Scse.spatial
  have e : ∀ c' : Fin 256,
      (∑ h' : Fin 8, ∑ l' : Fin 128, Cert.Scse.feat u B c'
          (⟨h'.val * 128 + l'.val, by have := h'.isLt; have := l'.isLt; omega⟩ : Fin 1024))
        = ∑ p : Fin 1024, Cert.Scse.feat u B c' p :=
    fun c' => Cert.Scse.sum_rows_lanes (fun p => Cert.Scse.feat u B c' p)
  simp only [h0, h1, h2, h3, e]

/-- The result array before the last view: entry (B, c, h, l) is the specification at position `128 h + l`. -/
def GK (c : Dev nD) : S64x256x8x128.Idx → EReal := fun i =>
  Cert.Scse.gated (m ((c : Thread nD τ).loc main_arg0)) (m ((c : Thread nD τ).loc main_arg1))
    (m ((c : Thread nD τ).loc main_arg2)) (m ((c : Thread nD τ).loc main_arg3)) (i 0) (i 1)
    (⟨(i 2).val * 128 + (i 3).val, by have h2 : (i 2).val < 8 := (i 2).isLt; have h3 : (i 3).val < 128 := (i 3).isLt; omega⟩ : Fin 1024)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Where the result block's entry (b, c', h, l) at point `t` sits in the array. -/
theorem emb4 (t : Fin cfg0.N) (b : Fin 8) (c' : Fin 256) (h : Fin 8) (l : Fin 128) :
    (((cfg0.win 4).blk t).view.emb (ix4 b c' h l) : S64x256x8x128.Idx) = ix4 (batchOf t b) c' h l := by
  obtain ⟨-, -, -, -, e0, e1, e2, e3, -⟩ := idx_facts t
  funext a
  apply Fin.ext
  match a with
  | ⟨0, _⟩ => show win0_4.index t (0 : Fin 4) * 8 + 1 * b.val = 8 * t.val + b.val; rw [e0]; omega
  | ⟨1, _⟩ => show win0_4.index t (1 : Fin 4) * 256 + 1 * c'.val = c'.val; rw [e1]; omega
  | ⟨2, _⟩ => show win0_4.index t (2 : Fin 4) * 8 + 1 * h.val = h.val; rw [e2]; omega
  | ⟨3, _⟩ => show win0_4.index t (3 : Fin 4) * 128 + 1 * l.val = l.val; rw [e3]; omega

/-- What point `t` writes back is block `t` of `GK`. -/
theorem flushed_eq (c : Dev nD) (t : Fin cfg0.N) :
    (dats m 0 c).flushed 4 t = ((cfg0.win 4).blk t).view.read (Elt Ideal) (GK m c) := by
  show (cfg0.win 4).cut (grid0.coords t) ((dats m 0 c).after 4 t) = _
  rw [after0_4]
  unfold out0_4
  rw [View.canon_unit_zero hz4]
  simp only [View.ld_unit_zero (S := S8x256x8x128) hz4, View.ld_unit_zero (S := S128x256) hz2,
    View.ld_unit_zero (S := S256x128) hz2, View.ld_unit_zero (S := S1x256) hz2]
  funext y
  obtain ⟨b, c', h, l, rfl⟩ : ∃ (b : Fin 8) (c' : Fin 256) (h : Fin 8) (l : Fin 128), y = ix4 b c' h l :=
    ⟨y 0, y 1, y 2, y 3, eq_ix4 y⟩
  show k0_pay1 (F := Ideal) (iblk m c 0 t) (iblk m c 1 t) (iblk m c 2 t) (iblk m c 3 t) (ix4 b c' h l)
    = GK m c (((cfg0.win 4).blk t).view.emb (ix4 b c' h l))
  rw [emb4 t b c' h l]
  exact block_value (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3)) (batchOf t b) b
    (fun c'' h' l' => (iblk0_apply m c t b c'' h' l').trans (V_v0_apply m c (batchOf t b) c'' h' l'))
    (fun j c'' => iblk1_apply m c t j c'') (fun c'' j => iblk2_apply m c t c'' j) (fun c'' => iblk3_apply m c t c'')
    c' h l

/-! ## The array after the grid -/

/-- Every entry lies in the block of the point its batch element belongs to. -/
theorem cover (i : S64x256x8x128.Idx) :
    ∃ t : Fin cfg0.N, (cfg0.win 4).flush t = true ∧ i ∈ ((cfg0.win 4).blk t).view.set := by
  have hi0 : (i 0).val < 64 := (i 0).isLt
  have hi1 : (i 1).val < 256 := (i 1).isLt
  have hi2 : (i 2).val < 8 := (i 2).isLt
  have hi3 : (i 3).val < 128 := (i 3).isLt
  let t : Fin cfg0.N := ⟨(i 0).val / 8, by rw [show cfg0.N = 8 from N_0]; omega⟩
  obtain ⟨-, -, -, -, e0, e1, e2, e3, -⟩ := idx_facts t
  refine ⟨t, flush0_4 t, ?_⟩
  show i ∈ ((View.whole main_v2).slice (win0_4.rect t)).set
  rw [View.set_slice_whole, Rect.mem_set_unit]
  intro a
  have ht : t.val = (i 0).val / 8 := rfl
  match a with
  | ⟨0, _⟩ => show win0_4.index t (0 : Fin 4) * 8 ≤ (i 0).val ∧ (i 0).val < win0_4.index t (0 : Fin 4) * 8 + 8; rw [e0]; omega
  | ⟨1, _⟩ => show win0_4.index t (1 : Fin 4) * 256 ≤ (i 1).val ∧ (i 1).val < win0_4.index t (1 : Fin 4) * 256 + 256; rw [e1]; omega
  | ⟨2, _⟩ => show win0_4.index t (2 : Fin 4) * 8 ≤ (i 2).val ∧ (i 2).val < win0_4.index t (2 : Fin 4) * 8 + 8; rw [e2]; omega
  | ⟨3, _⟩ => show win0_4.index t (3 : Fin 4) * 128 ≤ (i 3).val ∧ (i 3).val < win0_4.index t (3 : Fin 4) * 128 + 128; rw [e3]; omega

/-- So the result array ends holding `GK`. -/
theorem final (c : Dev nD) : (dats m 0 c).arrAt 4 cfg0.N = GK m c :=
  (dats m 0 c).arrAt_eq_of_cover 4 (GK m c) (fun t _ => flushed_eq m c t) (cover)

/-- The view after the grid: the program's result is the specification's array. -/
theorem tail_v3 (c : Dev nD) :
    (Pipeline.afterTail₀ cfgs (dats m) 0 (V0 m) [hostOps1] c main_v3 : S64x256x32x32.Idx → EReal)
      = Cert.Scse.out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = GK m c :=
    (Pipeline.withArrays_arr spec0 launch0.win.arr_inj c (V0 m c) (fun w => (dats m 0 c).arrAt w cfg0.N) 4).trans (final m c)
  funext i
  have hi2 : (i 2).val < 32 := (i 2).isLt
  have hi3 : (i 3).val < 32 := (i 3).isLt
  refine (congrArg (fun X => shapeCast S64x256x32x32 X shapeCasts_S64x256x8x128_S64x256x32x32 i) e).trans ?_
  refine (shapeCast_apply (s := S64x256x8x128) (t := S64x256x32x32) (GK m c) _ i
    (ix4 (i 0) (i 1) (⟨((i 2).val * 32 + (i 3).val) / 128, by omega⟩ : Fin 8)
      (⟨((i 2).val * 32 + (i 3).val) % 128, by omega⟩ : Fin 128)) ?_).trans ?_
  · rw [Shape.rowMajor_val_four, Shape.rowMajor_val_four]
    show ((((i 0).val * 256 + (i 1).val) * 8 + ((i 2).val * 32 + (i 3).val) / 128) * 128 + ((i 2).val * 32 + (i 3).val) % 128)
      = ((((i 0).val * 256 + (i 1).val) * 32 + (i 2).val) * 32 + (i 3).val)
    omega
  · unfold GK Cert.Scse.out
    show Cert.Scse.gated _ _ _ _ (i 0) (i 1) _ = Cert.Scse.gated _ _ _ _ (i 0) (i 1) _
    congr 1
    apply Fin.ext
    show ((i 2).val * 32 + (i 3).val) / 128 * 128 + ((i 2).val * 32 + (i 3).val) % 128 = (i 2).val * 32 + (i 3).val
    omega

/-! ## The run -/

/-- Every weakly fair execution of the program ends with the result array at the specification's function of the
    arguments, and the arguments unchanged. -/
theorem run : θ_run defs (onTc (τ := τ) (main (F := Ideal))) ⟨m, fun _ => 0, ρ⟩ fun r => ∀ c : Dev nD,
      r.2.mem ((c.tc : Thread nD τ).loc main_v3)
        = Cert.Scse.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Hand

end
-- ==== Proof.RPayload.lean ====
/-
  The reference body's stored value, read at one entry of its [1, 256, 1024] block.

  At block entry (0, c, p) the body stores the loaded input there times the sum of two logistic gates: the channel
  gate, whose argument sums over 128 features `j` the product of `x2 (c, j)` with the feature's mix
  `∑ c', mean c' · x1 (j, c')`, where `mean c'` is the sum of the block over its 1024 positions at channel `c'`
  times `2⁻¹⁰`; and the spatial gate, whose argument sums over the 256 channels `c'` the block at (0, c', p)
  times the weight `x3 (0, c')`. The body takes the sums as matrix products (the position sum against a column of
  ones) with the factors in the other order; over the extended reals a product with one is the factor and products
  commute.
-/
import proofs.«106113_g2000106105083958_pallasbulk_797_8_alg».proof.Proof.Gen.ReferenceIdeal.Skeleton
import proofs.«106113_g2000106105083958_pallasbulk_797_8_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.Lib.IdealHost
import Idealize.ShloMosaic.PureOps.Ideal.Laws

noncomputable section

namespace Cert.ReferenceIdeal.Pay

open Idealize.ShloMosaic Idealize.ShloMosaic.ValueIdx Cert.ReferenceIdeal Cert.ReferenceIdeal.Gen

/-- A product of an m×k by a k×n block into the zero block, read at an entry, is the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply _ prec A B _).trans
    ((Ideal.dotGeneral_apply _ prec .single A B _).symm.trans (StackMember.dotGeneral_plain_apply prec A B a b))

/-- One column broadcast over many: an [a, 1] block broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored value at block entry (0, c, p). -/
theorem pay_apply (x0 : FVec Ideal S1x256x1024 .f32) (x1 : FVec Ideal S128x256 .f32) (x2 : FVec Ideal S256x128 .f32)
    (x3 : FVec Ideal S1x256 .f32) (c : Fin 256) (p : Fin 1024) :
    k0_pay1 (F := Ideal) x0 x1 x2 x3 (ix3 (0 : Fin 1) c p)
      = x0 (ix3 (0 : Fin 1) c p)
        * (Ideal.logistic (∑ j : Fin 128, (∑ c' : Fin 256,
              ((∑ p' : Fin 1024, x0 (ix3 (0 : Fin 1) c' p')) * Cert.Scse.inv) * x1 (ix2 j c')) * x2 (ix2 c j))
          + Ideal.logistic (∑ c' : Fin 256, x0 (ix3 (0 : Fin 1) c' p) * x3 (ix2 (0 : Fin 1) c'))) := by
  unfold k0_pay1
  -- the stored block is the [256, 1024] product under a leading unit axis: the input times the sum of the two gates
  refine (shapeCast_ab_1ab_apply _ _ (0 : Fin 1) c p).trans ?_
  refine (mulf_apply _ _ _).trans ?_
  refine congrArg₂ (· * ·) (shapeCast_1ab_ab_apply x0 _ c p) ?_
  refine (addf_apply _ _ _).trans ?_
  refine congrArg₂ (· + ·) ?_ ?_
  · -- the channel gate: the column of gates, one per channel, read at row c
    refine (broadcastTo_a1_ab_apply _ _ c p).trans (congrArg Ideal.logistic ?_)
    -- the mix back up to the channels: a sum over the 128 features
    refine (matmul_plain_zero_apply none x2 _ c (0 : Fin 1)).trans ?_
    refine Finset.sum_congr rfl fun j _ => ?_
    refine (mul_comm _ _).trans (congrArg (· * x2 (ix2 c j)) ?_)
    -- the mix down to the features: a sum over the 256 channels
    refine (matmul_plain_zero_apply none x1 _ j (0 : Fin 1)).trans ?_
    refine Finset.sum_congr rfl fun c' _ => ?_
    refine (mul_comm _ _).trans (congrArg (· * x1 (ix2 j c')) ?_)
    -- the mean: the position sum times the scale
    refine (mulf_apply _ _ _).trans ?_
    refine congrArg₂ (· * ·) ?_ rfl
    -- the position sum: a product against the column of ones
    refine (matmul_plain_zero_apply none _ _ c' (0 : Fin 1)).trans ?_
    refine Finset.sum_congr rfl fun p' _ => ?_
    exact (congrArg₂ (· * ·) (shapeCast_1ab_ab_apply x0 _ c' p') Ideal.ofBits_one_f32).trans (mul_one _)
  · -- the spatial gate: the row of gates, one per position, read at column p
    refine (broadcastTo_1b_ab_apply _ _ c p).trans (congrArg Ideal.logistic ?_)
    refine (matmul_plain_zero_apply none _ _ (0 : Fin 1) p).trans ?_
    refine Finset.sum_congr rfl fun c' _ => ?_
    exact (mul_comm _ _).trans
      (congrArg₂ (· * ·) (shapeCast_1ab_ab_apply x0 _ c' p) (congrFun (shapeCast_self x3 _) _))

end Cert.ReferenceIdeal.Pay

end
-- ==== Proof.RValue.lean ====
/-
  What the reference program leaves in its result array, as the specification's function of the four arguments.

  The program views the input as [64, 256, 1024] (a feature map's 1024 positions on one axis) and the spatial weights
  as a row [1, 256]; its one grid of 64 points takes batch element `t` at point `t` with the three weight arrays
  whole; the result is viewed back as [64, 256, 32, 32].
  Here: the two views before the grid read at coordinates (`V_v0_apply`, `V_v1_apply`); each block at a point read
  at coordinates (`iblk0_apply` … `iblk3_apply`); a point's stored block is the specification at the point's batch
  element (`block_value`, `flushed_eq`); the 64 blocks cover the array (`cover`, `final`); the view after the grid
  (`tail_v3`); and the run (`run`).
-/
import proofs.«106113_g2000106105083958_pallasbulk_797_8_alg».proof.Proof.Gen.ReferenceIdeal.Frame
import proofs.«106113_g2000106105083958_pallasbulk_797_8_alg».proof.Proof.RPayload
import proofs.«106113_g2000106105083958_pallasbulk_797_8_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen

variable (m : (ℓ : Loc nD τ sig) → Buf (Elt Ideal) ℓ) (ρ : Dev nD → PrngReg)

/-! ## The two views before the grid -/

/-- The input viewed [64, 256, 1024]. -/
theorem V_v0 (c : Dev nD) : (V m c main_v0 : S64x256x1024.Idx → EReal)
    = shapeCast S64x256x1024 (m ((c : Thread nD τ).loc main_arg0) : S64x256x32x32.Idx → EReal) shapeCasts_S64x256x32x32_S64x256x1024 := by
  show StableHlo.after hostOps0 (fun b => m (c, b)) (Proc.devRef .tc main_v0) = _
  after_results
  rfl

/-- The spatial weights viewed as a row. -/
theorem V_v1 (c : Dev nD) : (V m c main_v1 : S1x256.Idx → EReal)
    = shapeCast S1x256 (m ((c : Thread nD τ).loc main_arg3) : S256x1.Idx → EReal) shapeCasts_S256x1_S1x256 := by
  show StableHlo.after hostOps0 (fun b => m (c, b)) (Proc.devRef .tc main_v1) = _
  after_results
  rfl

/-- Entry (B, c', p) of the viewed input is the feature map's position `p`: the two arrays share the row-major
    order. -/
theorem V_v0_apply (c : Dev nD) (B : Fin 64) (c' : Fin 256) (p : Fin 1024) :
    (V m c main_v0 : S64x256x1024.Idx → EReal) (ix3 B c' p)
      = Cert.Scse.feat (m ((c : Thread nD τ).loc main_arg0)) B c' p := by
  rw [V_v0]
  unfold Cert.Scse.feat
  refine shapeCast_apply (s := S64x256x32x32) (t := S64x256x1024) _ _ _ _ ?_
  rw [Shape.rowMajor_val_four, Shape.rowMajor_val_three]
  have hp := p.isLt
  show (((B.val * 256 + c'.val) * 32 + p.val / 32) * 32 + p.val % 32) = ((B.val * 256 + c'.val) * 1024 + p.val)
  omega

/-- Entry (0, c') of the row of spatial weights is the weight of channel `c'`. -/
theorem V_v1_apply (c : Dev nD) (c' : Fin 256) :
    (V m c main_v1 : S1x256.Idx → EReal) (ix2 (0 : Fin 1) c')
      = (m ((c : Thread nD τ).loc main_arg3) : S256x1.Idx → EReal) (ix2 c' (0 : Fin 1)) := by
  rw [V_v1]
  refine shapeCast_apply (s := S256x1) (t := S1x256) _ _ _ _ ?_
  rw [Shape.rowMajor_val_two, Shape.rowMajor_val_two]
  show c'.val * 1 + 0 = 0 * 256 + c'.val
  omega

/-! ## The blocks at a point -/

theorem grid_lt (t : Fin cfg0.N) : t.val < 64 := by
  have h := t.isLt
  have e : cfg0.N = 64 := N_0
  omega

/-- The index maps over the grid: the input's and the result's block index is the point on the batch axis and zero
    elsewhere; the weights' blocks are their whole arrays. -/
theorem idx_facts : ∀ t : Fin cfg0.N,
    win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The batch element of a point. -/
def batchOf (t : Fin cfg0.N) : Fin 64 := ⟨t.val, grid_lt t⟩

/-- The input block at point `t` holds batch element `t`. -/
theorem iblk0_apply (c : Dev nD) (t : Fin cfg0.N) (c' : Fin 256) (p : Fin 1024) :
    (iblk m c 0 t : Vec Ideal S1x256x1024 .f32) (ix3 (0 : Fin 1) c' p)
      = (V m c main_v0 : S64x256x1024.Idx → EReal) (ix3 (batchOf t) c' p) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = t.val; rw [e0]; omega
  | ⟨1, _⟩ => show win0_0.index t (1 : Fin 3) * 256 + 1 * c'.val = c'.val; rw [e1]; omega
  | ⟨2, _⟩ => show win0_0.index t (2 : Fin 3) * 1024 + 1 * p.val = p.val; rw [e2]; omega

/-- The squeeze weights' block is the whole array. -/
theorem iblk1_apply (c : Dev nD) (t : Fin cfg0.N) (j : Fin 128) (c' : Fin 256) :
    (iblk m c 1 t : Vec Ideal S128x256 .f32) (ix2 j c')
      = (m ((c : Thread nD τ).loc main_arg1) : S128x256.Idx → EReal) (ix2 j c') := by
  obtain ⟨-, -, -, -, -, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 128 + 1 * j.val = j.val; rw [e0]; omega
  | ⟨1, _⟩ => show win0_1.index t (1 : Fin 2) * 256 + 1 * c'.val = c'.val; rw [e1]; omega

/-- The excitation weights' block is the whole array. -/
theorem iblk2_apply (c : Dev nD) (t : Fin cfg0.N) (c' : Fin 256) (j : Fin 128) :
    (iblk m c 2 t : Vec Ideal S256x128 .f32) (ix2 c' j)
      = (m ((c : Thread nD τ).loc main_arg2) : S256x128.Idx → EReal) (ix2 c' j) := by
  obtain ⟨-, -, -, -, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 256 + 1 * c'.val = c'.val; rw [e0]; omega
  | ⟨1, _⟩ => show win0_2.index t (1 : Fin 2) * 128 + 1 * j.val = j.val; rw [e1]; omega

/-- The row of spatial weights' block is the whole row. -/
theorem iblk3_apply (c : Dev nD) (t : Fin cfg0.N) (c' : Fin 256) :
    (iblk m c 3 t : Vec Ideal S1x256 .f32) (ix2 (0 : Fin 1) c')
      = (m ((c : Thread nD τ).loc main_arg3) : S256x1.Idx → EReal) (ix2 c' (0 : Fin 1)) := by
  obtain ⟨-, -, -, -, -, -, -, -, -, -, e0, e1⟩ := idx_facts t
  rw [← V_v1_apply m c c']
  unfold iblk
  rw [View.read_apply]
  show V m c main_v1 _ = V m c main_v1 _
  congr 1
  funext a
  apply Fin.ext
  match a with
  | ⟨0, _⟩ => show win0_3.index t (0 : Fin 2) * 1 + 1 * 0 = 0; rw [e0]
  | ⟨1, _⟩ => show win0_3.index t (1 : Fin 2) * 256 + 1 * c'.val = c'.val; rw [e1]; omega

/-! ## What a point writes back -/

/-- A stored block whose loaded blocks are the arguments at batch element `B` holds the specification's value
    there. -/
theorem block_value (x0 : FVec Ideal S1x256x1024 .f32) (x1 : FVec Ideal S128x256 .f32) (x2 : FVec Ideal S256x128 .f32)
    (x3 : FVec Ideal S1x256 .f32)
    (u : (⟨4, ![64, 256, 32, 32]⟩ : Shape).Idx → EReal) (wsq : (⟨2, ![128, 256]⟩ : Shape).Idx → EReal)
    (wex : (⟨2, ![256, 128]⟩ : Shape).Idx → EReal) (ws : (⟨2, ![256, 1]⟩ : Shape).Idx → EReal)
    (B : Fin 64)
    (h0 : ∀ (c' : Fin 256) (p : Fin 1024), x0 (ix3 (0 : Fin 1) c' p) = Cert.Scse.feat u B c' p)
    (h1 : ∀ (j : Fin 128) (c' : Fin 256), x1 (ix2 j c') = wsq (ix2 j c'))
    (h2 : ∀ (c' : Fin 256) (j : Fin 128), x2 (ix2 c' j) = wex (ix2 c' j))
    (h3 : ∀ c' : Fin 256, x3 (ix2 (0 : Fin 1) c') = ws (ix2 c' (0 : Fin 1)))
    (c : Fin 256) (p : Fin 1024) :
    k0_pay1 (F := Ideal) x0 x1 x2 x3 (ix3 (0 : Fin 1) c p) = Cert.Scse.gated u wsq wex ws B c p := by
  rw [Cert.ReferenceIdeal.Pay.pay_apply]
  unfold Cert.Scse.gated Cert.Scse.excited Cert.Scse.squeezed Cert.Scse.pooled Cert.Scse.spatial
  simp only [h0, h1, h2, h3]

/-- The result array before the last view: entry (B, c, p) is the specification at position `p`. -/
def GR (c : Dev nD) : S64x256x1024.Idx → EReal := fun i =>
  Cert.Scse.gated (m ((c : Thread nD τ).loc main_arg0)) (m ((c : Thread nD τ).loc main_arg1))
    (m ((c : Thread nD τ).loc main_arg2)) (m ((c : Thread nD τ).loc main_arg3)) (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- Where the result block's entry (0, c', p) at point `t` sits in the array. -/
theorem emb4 (t : Fin cfg0.N) (c' : Fin 256) (p : Fin 1024) :
    (((cfg0.win 4).blk t).view.emb (ix3 (0 : Fin 1) c' p) : S64x256x1024.Idx) = ix3 (batchOf t) c' p := by
  obtain ⟨-, -, -, e0, e1, e2, -⟩ := idx_facts t
  funext a
  apply Fin.ext
  match a with
  | ⟨0, _⟩ => show win0_4.index t (0 : Fin 3) * 1 + 1 * 0 = t.val; rw [e0]; omega
  | ⟨1, _⟩ => show win0_4.index t (1 : Fin 3) * 256 + 1 * c'.val = c'.val; rw [e1]; omega
  | ⟨2, _⟩ => show win0_4.index t (2 : Fin 3) * 1024 + 1 * p.val = p.val; rw [e2]; omega

/-- What point `t` writes back is block `t` of `GR`. -/
theorem flushed_eq (c : Dev nD) (t : Fin cfg0.N) :
    (dats m 0 c).flushed 4 t = ((cfg0.win 4).blk t).view.read (Elt Ideal) (GR m c) := by
  show (cfg0.win 4).cut (grid0.coords t) ((dats m 0 c).after 4 t) = _
  rw [after0_4]
  unfold out0_4
  rw [View.canon_unit_zero hz3]
  simp only [View.ld_unit_zero (S := S1x256x1024) hz3, View.ld_unit_zero (S := S128x256) hz2,
    View.ld_unit_zero (S := S256x128) hz2, View.ld_unit_zero (S := S1x256) hz2]
  funext y
  obtain ⟨z, c', p, rfl⟩ : ∃ (z : Fin 1) (c' : Fin 256) (p : Fin 1024), y = ix3 z c' p :=
    ⟨y 0, y 1, y 2, eq_ix3 y⟩
  obtain rfl : z = 0 := Subsingleton.elim _ _
  show k0_pay1 (F := Ideal) (iblk m c 0 t) (iblk m c 1 t) (iblk m c 2 t) (iblk m c 3 t) (ix3 (0 : Fin 1) c' p)
    = GR m c (((cfg0.win 4).blk t).view.emb (ix3 (0 : Fin 1) c' p))
  rw [emb4 t c' p]
  exact block_value (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3)) (batchOf t)
    (fun c'' p' => (iblk0_apply m c t c'' p').trans (V_v0_apply m c (batchOf t) c'' p'))
    (fun j c'' => iblk1_apply m c t j c'') (fun c'' j => iblk2_apply m c t c'' j) (fun c'' => iblk3_apply m c t c'')
    c' p

/-! ## The array after the grid -/

/-- Every entry lies in the block of its batch element's point. -/
theorem cover (i : S64x256x1024.Idx) :
    ∃ t : Fin cfg0.N, (cfg0.win 4).flush t = true ∧ i ∈ ((cfg0.win 4).blk t).view.set := by
  have hi0 : (i 0).val < 64 := (i 0).isLt
  have hi1 : (i 1).val < 256 := (i 1).isLt
  have hi2 : (i 2).val < 1024 := (i 2).isLt
  let t : Fin cfg0.N := ⟨(i 0).val, by rw [show cfg0.N = 64 from N_0]; omega⟩
  obtain ⟨-, -, -, e0, e1, e2, -⟩ := idx_facts t
  refine ⟨t, flush0_4 t, ?_⟩
  show i ∈ ((View.whole main_v2).slice (win0_4.rect t)).set
  rw [View.set_slice_whole, Rect.mem_set_unit]
  intro a
  have ht : t.val = (i 0).val := rfl
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 256 ≤ (i 1).val ∧ (i 1).val < win0_4.index t (1 : Fin 3) * 256 + 256; rw [e1]; omega
  | ⟨2, _⟩ => show win0_4.index t (2 : Fin 3) * 1024 ≤ (i 2).val ∧ (i 2).val < win0_4.index t (2 : Fin 3) * 1024 + 1024; rw [e2]; omega

/-- So the result array ends holding `GR`. -/
theorem final (c : Dev nD) : (dats m 0 c).arrAt 4 cfg0.N = GR m c :=
  (dats m 0 c).arrAt_eq_of_cover 4 (GR m c) (fun t _ => flushed_eq m c t) (cover)

/-- The view after the grid: the program's result is the specification's array. -/
theorem tail_v3 (c : Dev nD) :
    (Pipeline.afterTail₀ cfgs (dats m) 0 (V0 m) [hostOps1] c main_v3 : S64x256x32x32.Idx → EReal)
      = Cert.Scse.out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = GR m c :=
    (Pipeline.withArrays_arr spec0 launch0.win.arr_inj c (V0 m c) (fun w => (dats m 0 c).arrAt w cfg0.N) 4).trans (final m c)
  funext i
  have hi2 : (i 2).val < 32 := (i 2).isLt
  have hi3 : (i 3).val < 32 := (i 3).isLt
  refine (congrArg (fun X => shapeCast S64x256x32x32 X shapeCasts_S64x256x1024_S64x256x32x32 i) e).trans ?_
  refine (shapeCast_apply (s := S64x256x1024) (t := S64x256x32x32) (GR m c) _ i
    (ix3 (i 0) (i 1) (⟨(i 2).val * 32 + (i 3).val, by omega⟩ : Fin 1024)) ?_).trans ?_
  · rw [Shape.rowMajor_val_three, Shape.rowMajor_val_four]
    show (((i 0).val * 256 + (i 1).val) * 1024 + ((i 2).val * 32 + (i 3).val))
      = ((((i 0).val * 256 + (i 1).val) * 32 + (i 2).val) * 32 + (i 3).val)
    omega
  · rfl

/-! ## The run -/

/-- Every weakly fair execution of the program ends with the result array at the specification's function of the
    arguments, and the arguments unchanged. -/
theorem run : θ_run defs (onTc (τ := τ) (main (F := Ideal))) ⟨m, fun _ => 0, ρ⟩ fun r => ∀ c : Dev nD,
      r.2.mem ((c.tc : Thread nD τ).loc main_v3)
        = Cert.Scse.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.ReferenceIdeal.Hand

end
-- ==== Proof.lean ====
/-
  The kernel and its reference compute one function over the extended reals: a channel gate and a spatial gate on a
  stack of feature maps (Proof/Spec.lean states it, `Cert.Scse.out`).

  The kernel reads the 32 × 32 maps as 8 rows of 128 lanes, eight batch elements to a grid point, takes the spatial
  mean by a sum over rows and lanes, the two channel mixes as matrix products with the activations on the left, and
  the spatial gate's argument as a sum over channels of products with the weight on the right. The reference reads
  the maps as 1024 positions, one batch element to a grid point, takes the mean as a matrix product with a column of
  ones, and every other sum as a matrix product with the weights on the left. Over the extended reals a product with
  one is the factor, products commute, and a sum does not depend on how its index set is laid out: the two results
  agree entry by entry, with no appeal to the inputs being finite.
  Proof/KValue.lean and Proof/RValue.lean read each program's result array off its run (the generated frames) as
  `Cert.Scse.out` of the arguments; Proof/KPayload.lean and Proof/RPayload.lean read each body's stored value at an
  entry. The three frames are the generated ones; the idealization rewrote nothing.
-/
import proofs.«106113_g2000106105083958_pallasbulk_797_8_alg».proof.Defs
import proofs.«106113_g2000106105083958_pallasbulk_797_8_alg».proof.Proof.Gen.Kernel
import proofs.«106113_g2000106105083958_pallasbulk_797_8_alg».proof.Proof.Gen.Kernel.Frame
import proofs.«106113_g2000106105083958_pallasbulk_797_8_alg».proof.Proof.Gen.KernelIdeal
import proofs.«106113_g2000106105083958_pallasbulk_797_8_alg».proof.Proof.Gen.KernelIdeal.Frame
import proofs.«106113_g2000106105083958_pallasbulk_797_8_alg».proof.Proof.Gen.ReferenceIdeal
import proofs.«106113_g2000106105083958_pallasbulk_797_8_alg».proof.Proof.Gen.ReferenceIdeal.Frame
import proofs.«106113_g2000106105083958_pallasbulk_797_8_alg».proof.Proof.Gen.Pre_finite_inputs
import proofs.«106113_g2000106105083958_pallasbulk_797_8_alg».proof.Proof.Spec
import proofs.«106113_g2000106105083958_pallasbulk_797_8_alg».proof.Proof.KValue
import proofs.«106113_g2000106105083958_pallasbulk_797_8_alg».proof.Proof.RValue
import Idealize.ShloMosaic.Adequacy
import Idealize.ShloMosaic.Init

noncomputable section

namespace Cert.Proof

open Idealize.ShloMosaic Idealize.SL.Sem

/-- Each program terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From memories that agree on the four arguments both programs end with the result array at the one function
    `Cert.Scse.out` of them. -/
theorem algebraic : Cert.algebraic_KernelIdeal_ReferenceIdeal := by
  intro m ρ m' ρ' _ hagree
  refine ⟨fun c => Cert.Scse.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ?_) (Cert.ReferenceIdeal.Hand.run m' ρ')
  obtain ⟨a0, a1, a2, a3⟩ := hagree c
  refine ⟨(h c).1.trans ?_, (h c).2⟩
  rw [a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
